-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S64x32 .f32) (main_arg11 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S64x32 .f32 := Host.absf main_arg10
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg6 : FVec F S64x64 .f32) (main_arg7 : FVec F S64x64 .f32) (main_arg8 : FVec F S64 .f32) (main_arg9 : FVec F S64x32 .f32) (main_arg10 : FVec F S64x32 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x32 .f32) (main_arg10 : FVec F S64x32 .f32) (main_arg11 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S10000x64 : Shape := ⟨2, ![10000, 64]⟩
abbrev S1x32 : Shape := ⟨2, ![1, 32]⟩
abbrev S100000x32 : Shape := ⟨2, ![100000, 32]⟩
abbrev S10000x32 : Shape := ⟨2, ![10000, 32]⟩

abbrev nBuf : Space → Nat
  | .hbm => 78
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64x32, .f32⟩
  | .hbm, ⟨11, _⟩ => ⟨S32, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x64, .f32⟩
  | .hbm, ⟨69, _⟩ => ⟨S_, .f32⟩
  | .hbm, ⟨70, _⟩ => ⟨S100000x64, .f32⟩
  | .hbm, ⟨71, _⟩ => ⟨S1600000x1, .i32⟩
  | .hbm, ⟨72, _⟩ => ⟨S100000x64, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S1x32, .f32⟩
  | .hbm, ⟨77, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x32, .f32⟩
  | .local _ .vmem, ⟨23, _⟩ => ⟨S64x32, .f32⟩
  | .local _ .vmem, ⟨24, _⟩ => ⟨S1x32, .f32⟩
  | .local _ .vmem, ⟨25, _⟩ => ⟨S10000x32, .f32⟩
  | .local _ .vmem, ⟨26, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x32.size a ≤ S64x32.size a
  hwx2_2 : ∀ i : grid2.Coords, EltTy.bits .f32 = 32 ∨ (Rect.block (s := S64x32) S64x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x32.size a ≤ S64x32.size a
  hwx2_3 : ∀ i : grid2.Coords, EltTy.bits .f32 = 32 ∨ (Rect.block (s := S64x32) S64x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x32.size a ≤ S100000x32.size a
  hwx2_5 : ∀ i : grid2.Coords, EltTy.bits .f32 = 32 ∨ (Rect.block (s := S100000x32) S10000x32.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S10000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 108
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x32, .f32⟩
  | .hbm, ⟨10, _⟩ => ⟨S64x32, .f32⟩
  | .hbm, ⟨11, _⟩ => ⟨S32, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S_, .f32⟩
  | .hbm, ⟨84, _⟩ => ⟨S100000x64, .f32⟩
  | .hbm, ⟨85, _⟩ => ⟨S1600000x1, .i32⟩
  | .hbm, ⟨86, _⟩ => ⟨S100000x64, .f32⟩
  | .hbm, ⟨87, _⟩ => ⟨S_, .f32⟩
  | .hbm, ⟨88, _⟩ => ⟨S1600000, .f32⟩
  | .hbm, ⟨89, _⟩ => ⟨S_, .f32⟩
  | .hbm, ⟨90, _⟩ => ⟨S100000, .f32⟩
  | .hbm, ⟨91, _⟩ => ⟨S1600000x1, .i32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x64, .f32⟩
  | .hbm, ⟨98, _⟩ => ⟨S100000x64, .f32⟩
  | .hbm, ⟨99, _⟩ => ⟨S100000x32, .f32⟩
  | .hbm, ⟨100, _⟩ => ⟨S100000x32, .f32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | .hbm, ⟨105, _⟩ => ⟨S_, .f32⟩
  | .hbm, ⟨106, _⟩ => ⟨S100000x32, .f32⟩
  | .hbm, ⟨107, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_7 : Ref sig .tc := ⟨.hbm, 56, rfl⟩
abbrev main_v35 : Ref sig .tc := ⟨.hbm, 57, rfl⟩
abbrev main_cst_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call0_cst : Ref sig .tc := ⟨.hbm, 105, rfl⟩
abbrev main_call0_v0 : Ref sig .tc := ⟨.hbm, 106, rfl⟩
abbrev main_v75 : Ref sig .tc := ⟨.hbm, 107, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.LibMatmul.lean ====
/-
  General reading lemmas: the matrix unit's rows-by-columns product into a zero accumulator as a sum over the shared
  coordinate, and the division of the extended reals by a nonzero divisor as a product with
  the divisor's reciprocal taken first.
-/
import Idealize.ShloMosaic.Lib.ValueLayout
import Idealize.ShloMosaic.PureOps.Ideal.Laws

noncomputable section

namespace Cert.LibMatmul

open Idealize.ShloMosaic Idealize.ShloMosaic.ValueIdx

variable {α : Type}

/-- The matrix unit's rows-by-columns product into the zero accumulator, read at (a, b): `∑ c, A[a, c] · B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  -- the sum over the contraction index set, which has one axis of extent k
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- Off a zero divisor, dividing is multiplying by the reciprocal taken first: `x · (1 / y) = x / y`. -/
theorem mul_div_one_eq_div {one y : EReal} (h1 : one = 1) (hy : y ≠ 0) (x : EReal) :
    x * Ideal.div one y = Ideal.div x y := by
  subst h1
  rw [Ideal.div, Ideal.div, if_neg hy, if_neg hy, one_mul]

end Cert.LibMatmul

end
-- ==== Proof.Sage.lean ====
/-
  One layer of mean-aggregation message passing, index by index. Node `p`'s output feature `q` is the node's own
  feature row through the self weights, plus the mean of its in-neighbours' rows through the neighbour weights, plus
  the bias: `∑ₖ X[p,k]·Ws[k,q] + ∑ₖ M[p,k]·Wn[k,q] + b[q]`. Two arrangements of that value meet here: a whole-array
  one (two host matrix products, the bias broadcast through a row), and a blockwise one (a block of rows through the
  matrix unit into a zero accumulator, the bias a row broadcast over the block). The neighbourhood mean itself comes
  in two forms, the sum divided by the clamped in-degree and the sum times the clamped in-degree's reciprocal; the
  clamp keeps the divisor at least one, so off zero, and there the two agree on every extended real.
-/
import Idealize.ShloMosaic.Lib.ValueLayout
import Idealize.ShloMosaic.Lib.ValueIdx
import Idealize.ShloMosaic.PureOps.Ideal.Laws
import proofs.«159833_j26809185861708_1_alg».proof.Proof.LibLayout
import proofs.«159833_j26809185861708_1_alg».proof.Proof.LibMatmul

noncomputable section

namespace Cert.Sage

open Idealize.ShloMosaic Idealize.ShloMosaic.ValueIdx Cert.LibLayout Cert.LibMatmul

/-- One layer before its activation over `n` nodes with 64 input and `d` output features, at node `i 0` and output
    feature `i 1`. -/
def combine {n d : ℕ} (X M : (⟨2, ![n, 64]⟩ : Shape).Idx → EReal) (Ws Wn : (⟨2, ![64, d]⟩ : Shape).Idx → EReal)
    (b : (⟨1, ![d]⟩ : Shape).Idx → EReal) : (⟨2, ![n, d]⟩ : Shape).Idx → EReal :=
  fun i => (∑ k : Fin 64, X (ix2 (i 0) k) * Ws (ix2 k (i 1)) + ∑ k : Fin 64, M (ix2 (i 0) k) * Wn (ix2 k (i 1)))
    + b (ix1 (i 1))

theorem combine_apply {n d : ℕ} (X M : (⟨2, ![n, 64]⟩ : Shape).Idx → EReal) (Ws Wn : (⟨2, ![64, d]⟩ : Shape).Idx → EReal)
    (b : (⟨1, ![d]⟩ : Shape).Idx → EReal) (p : Fin n) (q : Fin d) :
    combine X M Ws Wn b (ix2 p q)
      = (∑ k : Fin 64, X (ix2 p k) * Ws (ix2 k q) + ∑ k : Fin 64, M (ix2 p k) * Wn (ix2 k q)) + b (ix1 q) := rfl

/-- The same value with the bias given as a one-row matrix. -/
def combineRow {n d : ℕ} (X M : (⟨2, ![n, 64]⟩ : Shape).Idx → EReal) (Ws Wn : (⟨2, ![64, d]⟩ : Shape).Idx → EReal)
    (B : (⟨2, ![1, d]⟩ : Shape).Idx → EReal) : (⟨2, ![n, d]⟩ : Shape).Idx → EReal :=
  fun i => (∑ k : Fin 64, X (ix2 (i 0) k) * Ws (ix2 k (i 1)) + ∑ k : Fin 64, M (ix2 (i 0) k) * Wn (ix2 k (i 1)))
    + B (ix2 (0 : Fin 1) (i 1))

/-- A bias vector made a one-row matrix gives the same layer. -/
theorem combineRow_shapeCast {n d : ℕ} (X M : (⟨2, ![n, 64]⟩ : Shape).Idx → EReal) (Ws Wn : (⟨2, ![64, d]⟩ : Shape).Idx → EReal)
    (b : (⟨1, ![d]⟩ : Shape).Idx → EReal) (h : (⟨1, ![d]⟩ : Shape).ShapeCasts ⟨2, ![1, d]⟩) :
    combineRow X M Ws Wn (shapeCast ⟨2, ![1, d]⟩ b h) = combine (n := n) X M Ws Wn b := by
  funext i
  obtain ⟨p, q, rfl⟩ : ∃ (p : Fin n) (q : Fin d), i = ix2 p q := ⟨i 0, i 1, eq_ix2 i⟩
  show _ + shapeCast ⟨2, ![1, d]⟩ b h (ix2 (0 : Fin 1) q) = _ + b (ix1 q)
  rw [shapeCast_a_1a_apply]

/-- Row `p` of a block whose rows are rows of the whole arrays computes the layer at the array index `i` the row
    sits at: the block's rows read `X` and `M` at row `i 0`, the weights and the bias are read whole. -/
theorem block_is_rows {n r d : ℕ} (X M : (⟨2, ![n, 64]⟩ : Shape).Idx → EReal) (Ws Wn : (⟨2, ![64, d]⟩ : Shape).Idx → EReal)
    (B : (⟨2, ![1, d]⟩ : Shape).Idx → EReal)
    (x0 x1 : (⟨2, ![r, 64]⟩ : Shape).Idx → EReal) (x2 x3 : (⟨2, ![64, d]⟩ : Shape).Idx → EReal)
    (x4 : (⟨2, ![1, d]⟩ : Shape).Idx → EReal) (i : (⟨2, ![n, d]⟩ : Shape).Idx) (p : Fin r) (q : Fin d)
    (h0 : ∀ k : Fin 64, x0 (ix2 p k) = X (ix2 (i 0) k)) (h1 : ∀ k : Fin 64, x1 (ix2 p k) = M (ix2 (i 0) k))
    (h2 : ∀ k : Fin 64, x2 (ix2 k q) = Ws (ix2 k (i 1))) (h3 : ∀ k : Fin 64, x3 (ix2 k q) = Wn (ix2 k (i 1)))
    (h4 : x4 (ix2 (0 : Fin 1) q) = B (ix2 (0 : Fin 1) (i 1))) :
    (∑ k : Fin 64, x0 (ix2 p k) * x2 (ix2 k q) + ∑ k : Fin 64, x1 (ix2 p k) * x3 (ix2 k q)) + x4 (ix2 (0 : Fin 1) q)
      = combineRow X M Ws Wn B i := by
  unfold combineRow
  simp only [h0, h1, h2, h3, h4]

/-- The activation: the larger of the value and zero, the zero kept as its word. -/
def relu {s : Shape} (f : s.Idx → EReal) : s.Idx → EReal := fun i => max (f i) (Ideal.ofBits .f32 0x00000000#32)

/-- The whole-array arrangement: two host matrix products added, then the bias, made a row and broadcast down the
    rows, added. -/
theorem host_combine {n d : ℕ} (X M : FVec Ideal ⟨2, ![n, 64]⟩ .f32) (Ws Wn : FVec Ideal ⟨2, ![64, d]⟩ .f32)
    (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1]) :
    addf (addf (FloatOps.dotGeneral (DotDims.plain n 64 d) none .single X Ws)
        (FloatOps.dotGeneral (DotDims.plain n 64 d) none .single M Wn))
      (broadcastInDim ⟨2, ![n, d]⟩ ![0, 1] h2 (broadcastInDim ⟨2, ![1, d]⟩ ![1] h1 b))
      = combine X M Ws Wn b := by
  funext i
  obtain ⟨p, q, rfl⟩ : ∃ (p : Fin n) (q : Fin d), i = ix2 p q := ⟨i 0, i 1, eq_ix2 i⟩
  rw [combine_apply, addf_apply, addf_apply, dotGeneral_plain_apply, dotGeneral_plain_apply,
    broadcastInDim_1b_ab_apply, broadcastInDim_b_1b_apply]

/-- The blockwise arrangement at row `p` of a block of `r` rows: both products through the matrix unit into a zero
    accumulator, the bias row broadcast over the block. The narrowing of the operands' format is the identity on
    extended reals. -/
theorem block_combine {r d : ℕ} (x0 x1 : FVec Ideal ⟨2, ![r, 64]⟩ .f32) (x2 x3 : FVec Ideal ⟨2, ![64, d]⟩ .f32)
    (x4 : FVec Ideal ⟨2, ![1, d]⟩ .f32) (hb : (⟨2, ![1, d]⟩ : Shape).Broadcasts ⟨2, ![r, d]⟩)
    (hlt : FTy.bf16.bits < FTy.f32.bits) (p : Fin r) (q : Fin d) :
    addf (addf (FloatOps.matmul (DotDims.plain r 64 d) none (truncf .bf16 x0 hlt) (truncf .bf16 x2 hlt)
          (constant ⟨2, ![r, d]⟩ .f32 0x00000000#32))
        (FloatOps.matmul (DotDims.plain r 64 d) none (truncf .bf16 x1 hlt) (truncf .bf16 x3 hlt)
          (constant ⟨2, ![r, d]⟩ .f32 0x00000000#32)))
      (broadcastTo ⟨2, ![r, d]⟩ x4 hb) (ix2 p q)
      = (∑ k : Fin 64, x0 (ix2 p k) * x2 (ix2 k q) + ∑ k : Fin 64, x1 (ix2 p k) * x3 (ix2 k q))
        + x4 (ix2 (0 : Fin 1) q) := by
  rw [addf_apply, addf_apply, matmul_plain_zero_apply, matmul_plain_zero_apply, broadcastTo_1b_ab_apply]
  rfl

/-- The word of `1.0` denotes the real one. -/
theorem one_f32 : Ideal.ofBits .f32 0x3F800000#32 = 1 := by
  simp [Ideal.ofBits, Ideal.ieee]
  rw [← EReal.coe_mul]
  norm_num

/-- The two forms of the neighbourhood mean agree: the per-node sums `A` times the reciprocal of the clamped
    in-degree, against `A` divided by the clamped in-degree; the clamp `max D 1` is at least one, so not zero. -/
theorem mean_forms {n d : ℕ} (A : FVec Ideal ⟨2, ![n, d]⟩ .f32) (D one : FVec Ideal ⟨1, ![n]⟩ .f32)
    (hone : ∀ j, one j = 1)
    (h1 : (⟨1, ![n]⟩ : Shape).BroadcastsInDim ⟨2, ![n, 1]⟩ ![0])
    (h2 : (⟨2, ![n, 1]⟩ : Shape).BroadcastsInDim ⟨2, ![n, d]⟩ ![0, 1]) :
    mulf A (broadcastInDim ⟨2, ![n, d]⟩ ![0, 1] h2 (broadcastInDim ⟨2, ![n, 1]⟩ ![0] h1
        (Host.divf one (maximumf D one))))
      = Host.divf A (broadcastInDim ⟨2, ![n, d]⟩ ![0, 1] h2 (broadcastInDim ⟨2, ![n, 1]⟩ ![0] h1 (maximumf D one))) := by
  funext i
  obtain ⟨p, q, rfl⟩ : ∃ (p : Fin n) (q : Fin d), i = ix2 p q := ⟨i 0, i 1, eq_ix2 i⟩
  rw [mulf_apply]
  show _ * _ = Ideal.div _ _
  rw [broadcastInDim_a1_ab_apply, broadcastInDim_a_a1_apply, broadcastInDim_a1_ab_apply, broadcastInDim_a_a1_apply]
  show A (ix2 p q) * Ideal.div (one (ix1 p)) (max (D (ix1 p)) (one (ix1 p))) = Ideal.div (A (ix2 p q)) (max (D (ix1 p)) (one (ix1 p)))
  rw [hone]
  exact mul_div_one_eq_div rfl (ne_of_gt (lt_of_lt_of_le zero_lt_one (le_max_right _ _))) _

end Cert.Sage

end
-- ==== Proof.KLayer0.lean ====
/-
  The first layer's launch, read as a value. The launch walks ten blocks of 10000 node rows; at block `t` the body
  sees rows `10000·t … 10000·t + 9999` of the node features and of the neighbourhood means, and the two weight
  matrices and the bias row whole. Row `p` of what it stores is the layer's value at node `10000·t + p`, so the
  ten blocks written back, which tile the result array, leave it holding the layer's value at every node.
-/
import proofs.«159833_j26809185861708_1_alg».proof.Proof.KIFrame
import proofs.«159833_j26809185861708_1_alg».proof.Proof.Sage
import Idealize.ShloMosaic.Lib.Pipeline.Value
import Idealize.ShloMosaic.Lib.ValueIdx

set_option maxRecDepth 16384

noncomputable section

namespace Cert.KernelIdeal.Layer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, feature `q` of its block, from the blocks it loaded. -/
theorem pay_apply (x0 x1 : Vec Ideal S10000x64 .f32) (x2 x3 : Vec Ideal S64x64 .f32) (x4 : Vec Ideal S1x64 .f32)
    (p : Fin 10000) (q : Fin 64) :
    k0_pay1 x0 x1 x2 x3 x4 (ix2 p q)
      = (∑ k : Fin 64, x0 (ix2 p k) * x2 (ix2 k q) + ∑ k : Fin 64, x1 (ix2 p k) * x3 (ix2 k q)) + x4 (ix2 (0 : Fin 1) q) := by
  unfold k0_pay1
  simp only [shapeCast_self]
  exact Sage.block_combine x0 x1 x2 x3 x4 _ _ p q

/-- The printed index maps over the grid: the row-blocked windows sit at block row `t`, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row is some point's. -/
theorem idx_onto : ∀ q0 : Fin 10, ∃ t : Fin cfg0.N, t.val = q0.val :=
  (by decide +kernel : ∀ q0 : Fin 10, ∃ t : Fin grid0.N, t.val = q0.val)

/-- What the result array ends holding: the layer of the arrays the launch finds. -/
abbrev G (c : Dev nD) : S100000x64.Idx → EReal :=
  Sage.combineRow (V c main_arg0) (V c main_v20) (V c main_arg3) (V c main_arg4) (V c main_v21)

/-- What point `t` writes back is block `t` of the layer's value. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S10000x64) hz, View.ld_unit_zero (S := S64x64) hz, View.ld_unit_zero (S := S1x64) hz]
  obtain ⟨e00, e01, e10, e11, e20, e21, e30, e31, e40, e41, e50, e51⟩ := idx_facts t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (iblk0 V c 3 t) (iblk0 V c 4 t) (ix2 p q)
    = G V c (((cfg0.win 5).blk t).view.emb (ix2 p q))
  refine (pay_apply (iblk0 V c 0 t) (iblk0 V c 1 t) (iblk0 V c 2 t) (iblk0 V c 3 t) (iblk0 V c 4 t) p q).trans ?_
  refine Sage.block_is_rows (V c main_arg0) (V c main_v20) (V c main_arg3) (V c main_arg4) (V c main_v21)
    (iblk0 V c 0 t) (iblk0 V c 1 t) (iblk0 V c 2 t) (iblk0 V c 3 t) (iblk0 V c 4 t)
    (((cfg0.win 5).blk t).view.emb (ix2 p q)) p q ?_ ?_ ?_ ?_ ?_
  · intro k
    show V c main_arg0 (((cfg0.win 0).blk t).view.emb (ix2 p k)) = _
    refine congrArg (V c main_arg0) (funext fun a => Fin.ext ?_)
    match a with
    | ⟨0, _⟩ => show win0_0.index t (0 : Fin 2) * 10000 + 1 * p.val = win0_5.index t (0 : Fin 2) * 10000 + 1 * p.val; omega
    | ⟨1, _⟩ => show win0_0.index t (1 : Fin 2) * 64 + 1 * k.val = k.val; omega
  · intro k
    show V c main_v20 (((cfg0.win 1).blk t).view.emb (ix2 p k)) = _
    refine congrArg (V c main_v20) (funext fun a => Fin.ext ?_)
    match a with
    | ⟨0, _⟩ => show win0_1.index t (0 : Fin 2) * 10000 + 1 * p.val = win0_5.index t (0 : Fin 2) * 10000 + 1 * p.val; omega
    | ⟨1, _⟩ => show win0_1.index t (1 : Fin 2) * 64 + 1 * k.val = k.val; omega
  · intro k
    show V c main_arg3 (((cfg0.win 2).blk t).view.emb (ix2 k q)) = _
    refine congrArg (V c main_arg3) (funext fun a => Fin.ext ?_)
    match a with
    | ⟨0, _⟩ => show win0_2.index t (0 : Fin 2) * 64 + 1 * k.val = k.val; omega
    | ⟨1, _⟩ => show win0_2.index t (1 : Fin 2) * 64 + 1 * q.val = win0_5.index t (1 : Fin 2) * 64 + 1 * q.val; omega
  · intro k
    show V c main_arg4 (((cfg0.win 3).blk t).view.emb (ix2 k q)) = _
    refine congrArg (V c main_arg4) (funext fun a => Fin.ext ?_)
    match a with
    | ⟨0, _⟩ => show win0_3.index t (0 : Fin 2) * 64 + 1 * k.val = k.val; omega
    | ⟨1, _⟩ => show win0_3.index t (1 : Fin 2) * 64 + 1 * q.val = win0_5.index t (1 : Fin 2) * 64 + 1 * q.val; omega
  · show V c main_v21 (((cfg0.win 4).blk t).view.emb (ix2 (0 : Fin 1) q)) = _
    refine congrArg (V c main_v21) (funext fun a => Fin.ext ?_)
    match a with
    | ⟨0, _⟩ => show win0_4.index t (0 : Fin 2) * 1 + 1 * 0 = 0; omega
    | ⟨1, _⟩ => show win0_4.index t (1 : Fin 2) * 64 + 1 * q.val = win0_5.index t (1 : Fin 2) * 64 + 1 * q.val; omega

/-- An index of the result array is in point `t`'s block iff each coordinate is in the block's range on its axis. -/
theorem mem_blk (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v22).slice (win0_5.rect t)).set ↔ _
  rw [View.set_slice_whole, Rect.mem_set_unit]
  exact Iff.rfl

/-- The ten row blocks tile the result array: node `r` is in block `r / 10000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 10000, by omega⟩
  have ht' : t.val = (i 0).val / 10000 := ht
  obtain ⟨e00, e01, e10, e11, e20, e21, e30, e31, e40, e41, e50, e51⟩ := idx_facts t
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- The result array after the launch is the layer of the arrays the launch found. -/
theorem value (c : Dev nD) : (dat0 V c).arrAt 5 cfg0.N = G V c :=
  (dat0 V c).arrAt_eq_of_cover 5 (G V c) (fun t _ => flushed_eq V c t) cover

end Cert.KernelIdeal.Layer0

end
-- ==== Proof.KLayer2.lean ====
/-
  The third layer's launch, read as a value: 64 features in, 32 out, and the activation applied in the body. The
  launch walks ten blocks of 10000 node rows; at block `t` the body sees rows `10000·t … 10000·t + 9999` of the node
  features and of the neighbourhood means, and the two weight matrices and the bias row whole. Row `p` of what it
  stores is the larger of zero and the layer's value at node `10000·t + p`, so the ten blocks written back, which
  tile the result array, leave it holding the activated layer at every node.
-/
import proofs.«159833_j26809185861708_1_alg».proof.Proof.KIFrame
import proofs.«159833_j26809185861708_1_alg».proof.Proof.Sage
import Idealize.ShloMosaic.Lib.Pipeline.Value
import Idealize.ShloMosaic.Lib.ValueIdx

set_option maxRecDepth 16384

noncomputable section

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's stored value at row `p`, feature `q` of its block, from the blocks it loaded. -/
theorem pay_apply (x0 x1 : Vec Ideal S10000x64 .f32) (x2 x3 : Vec Ideal S64x32 .f32) (x4 : Vec Ideal S1x32 .f32)
    (p : Fin 10000) (q : Fin 32) :
    k2_pay1 x0 x1 x2 x3 x4 (ix2 p q)
      = max ((∑ k : Fin 64, x0 (ix2 p k) * x2 (ix2 k q) + ∑ k : Fin 64, x1 (ix2 p k) * x3 (ix2 k q)) + x4 (ix2 (0 : Fin 1) q))
          (Ideal.ofBits .f32 0x00000000#32) := by
  unfold k2_pay1
  simp only [shapeCast_self]
  rw [maximumf_apply, broadcast_apply]
  exact congrArg (max · (Ideal.ofBits .f32 0x00000000#32)) (Sage.block_combine x0 x1 x2 x3 x4 _ _ p q)

/-- The printed index maps over the grid: the row-blocked windows sit at block row `t`, the others at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row is some point's. -/
theorem idx_onto : ∀ q0 : Fin 10, ∃ t : Fin cfg2.N, t.val = q0.val :=
  (by decide +kernel : ∀ q0 : Fin 10, ∃ t : Fin grid2.N, t.val = q0.val)

/-- What the result array ends holding: the activated layer of the arrays the launch finds. -/
abbrev G (c : Dev nD) : S100000x32.Idx → EReal :=
  Sage.relu (Sage.combineRow (V c main_v37) (V c main_v50) (V c main_arg9) (V c main_arg10) (V c main_v51))

/-- What point `t` writes back is block `t` of the activated layer's value. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S10000x64) hz, View.ld_unit_zero (S := S64x32) hz, View.ld_unit_zero (S := S1x32) hz]
  obtain ⟨e00, e01, e10, e11, e20, e21, e30, e31, e40, e41, e50, e51⟩ := idx_facts t
  funext j
  obtain ⟨p, q, rfl⟩ : ∃ (p : Fin 10000) (q : Fin 32), j = ix2 p q := ⟨j 0, j 1, eq_ix2 j⟩
  show k2_pay1 (iblk2 V c 0 t) (iblk2 V c 1 t) (iblk2 V c 2 t) (iblk2 V c 3 t) (iblk2 V c 4 t) (ix2 p q)
    = G V c (((cfg2.win 5).blk t).view.emb (ix2 p q))
  refine (pay_apply (iblk2 V c 0 t) (iblk2 V c 1 t) (iblk2 V c 2 t) (iblk2 V c 3 t) (iblk2 V c 4 t) p q).trans ?_
  refine congrArg (max · (Ideal.ofBits .f32 0x00000000#32)) ?_
  refine Sage.block_is_rows (V c main_v37) (V c main_v50) (V c main_arg9) (V c main_arg10) (V c main_v51)
    (iblk2 V c 0 t) (iblk2 V c 1 t) (iblk2 V c 2 t) (iblk2 V c 3 t) (iblk2 V c 4 t)
    (((cfg2.win 5).blk t).view.emb (ix2 p q)) p q ?_ ?_ ?_ ?_ ?_
  · intro k
    show V c main_v37 (((cfg2.win 0).blk t).view.emb (ix2 p k)) = _
    refine congrArg (V c main_v37) (funext fun a => Fin.ext ?_)
    match a with
    | ⟨0, _⟩ => show win2_0.index t (0 : Fin 2) * 10000 + 1 * p.val = win2_5.index t (0 : Fin 2) * 10000 + 1 * p.val; omega
    | ⟨1, _⟩ => show win2_0.index t (1 : Fin 2) * 64 + 1 * k.val = k.val; omega
  · intro k
    show V c main_v50 (((cfg2.win 1).blk t).view.emb (ix2 p k)) = _
    refine congrArg (V c main_v50) (funext fun a => Fin.ext ?_)
    match a with
    | ⟨0, _⟩ => show win2_1.index t (0 : Fin 2) * 10000 + 1 * p.val = win2_5.index t (0 : Fin 2) * 10000 + 1 * p.val; omega
    | ⟨1, _⟩ => show win2_1.index t (1 : Fin 2) * 64 + 1 * k.val = k.val; omega
  · intro k
    show V c main_arg9 (((cfg2.win 2).blk t).view.emb (ix2 k q)) = _
    refine congrArg (V c main_arg9) (funext fun a => Fin.ext ?_)
    match a with
    | ⟨0, _⟩ => show win2_2.index t (0 : Fin 2) * 64 + 1 * k.val = k.val; omega
    | ⟨1, _⟩ => show win2_2.index t (1 : Fin 2) * 32 + 1 * q.val = win2_5.index t (1 : Fin 2) * 32 + 1 * q.val; omega
  · intro k
    show V c main_arg10 (((cfg2.win 3).blk t).view.emb (ix2 k q)) = _
    refine congrArg (V c main_arg10) (funext fun a => Fin.ext ?_)
    match a with
    | ⟨0, _⟩ => show win2_3.index t (0 : Fin 2) * 64 + 1 * k.val = k.val; omega
    | ⟨1, _⟩ => show win2_3.index t (1 : Fin 2) * 32 + 1 * q.val = win2_5.index t (1 : Fin 2) * 32 + 1 * q.val; omega
  · show V c main_v51 (((cfg2.win 4).blk t).view.emb (ix2 (0 : Fin 1) q)) = _
    refine congrArg (V c main_v51) (funext fun a => Fin.ext ?_)
    match a with
    | ⟨0, _⟩ => show win2_4.index t (0 : Fin 2) * 1 + 1 * 0 = 0; omega
    | ⟨1, _⟩ => show win2_4.index t (1 : Fin 2) * 32 + 1 * q.val = win2_5.index t (1 : Fin 2) * 32 + 1 * q.val; omega

/-- An index of the result array is in point `t`'s block iff each coordinate is in the block's range on its axis. -/
theorem mem_blk (t : Fin cfg2.N) (i : S100000x32.Idx) :
    i ∈ ((cfg2.win 5).blk t).view.set ↔ ∀ a : Fin 2, win2_5.index t a * S10000x32.size a ≤ (i a).val ∧ (i a).val < win2_5.index t a * S10000x32.size a + S10000x32.size a := by
  show i ∈ ((View.whole main_v52).slice (win2_5.rect t)).set ↔ _
  rw [View.set_slice_whole, Rect.mem_set_unit]
  exact Iff.rfl

/-- The ten row blocks tile the result array: node `r` is in block `r / 10000`. -/
theorem cover (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  obtain ⟨t, ht⟩ := idx_onto ⟨(i 0).val / 10000, by omega⟩
  have ht' : t.val = (i 0).val / 10000 := ht
  obtain ⟨e00, e01, e10, e11, e20, e21, e30, e31, e40, e41, e50, e51⟩ := idx_facts t
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 32 ≤ (i 1).val ∧ (i 1).val < win2_5.index t (1 : Fin 2) * 32 + 32; omega

/-- The result array after the launch is the activated layer of the arrays the launch found. -/
theorem value (c : Dev nD) : (dat2 V c).arrAt 5 cfg2.N = G V c :=
  (dat2 V c).arrAt_eq_of_cover 5 (G V c) (fun t _ => flushed_eq V c t) cover

end Cert.KernelIdeal.Layer2

end
-- ==== Proof.RLayers.lean ====
/-
  The whole-array program, layer by layer. Each of its three layers is two matrix products of the node features and of
  their neighbourhood means, added, plus the bias broadcast through a row: index by index the layer function. The
  neighbourhood mean of the second and of the third layer is the first layer's mean function applied to the previous
  layer's output: the same gather along the source indices, the same sums along the destination indices, the same
  clamped in-degree. The last layer ends in the larger of its value and zero.
-/
import proofs.«159833_j26809185861708_1_alg».proof.Proof.Gen.ReferenceIdeal.Read
import proofs.«159833_j26809185861708_1_alg».proof.Proof.Sage

noncomputable section

namespace Cert.ReferenceIdeal.Layers

open Cert.ReferenceIdeal Cert.ReferenceIdeal.Read Idealize.ShloMosaic

variable (x0 : (⟨S100000x64, .f32⟩ : BufTy).Contents (Elt Ideal)) (x1 x2 : (⟨S1600000, .i32⟩ : BufTy).Contents (Elt Ideal))
  (x3 x4 : (⟨S64x64, .f32⟩ : BufTy).Contents (Elt Ideal)) (x5 : (⟨S64, .f32⟩ : BufTy).Contents (Elt Ideal))
  (x6 x7 : (⟨S64x64, .f32⟩ : BufTy).Contents (Elt Ideal)) (x8 : (⟨S64, .f32⟩ : BufTy).Contents (Elt Ideal))
  (x9 x10 : (⟨S64x32, .f32⟩ : BufTy).Contents (Elt Ideal)) (x11 : (⟨S32, .f32⟩ : BufTy).Contents (Elt Ideal))

/-- The first layer's output is the layer function of the node features and of their neighbourhood mean. -/
theorem layer1 : val_main_v24 (F := Ideal) x0 x1 x2 x3 x4 x5
    = Sage.combine x0 (val_main_v18 (F := Ideal) x0 x1 x2) x3 x4 x5 := by
  unfold val_main_v24 val_main_v21 val_main_v19 val_main_v20 val_main_v23 val_main_v22
  exact Sage.host_combine x0 (val_main_v18 (F := Ideal) x0 x1 x2) x3 x4 x5 _ _

/-- The second layer's neighbourhood mean is the mean function of the first layer's output. -/
theorem mean2 : val_main_v43 (F := Ideal) x0 x1 x2 x3 x4 x5
    = val_main_v18 (F := Ideal) (val_main_v24 (F := Ideal) x0 x1 x2 x3 x4 x5) x1 x2 := rfl

/-- The second layer's output is the layer function of the first layer's output and of its neighbourhood mean. -/
theorem layer2 : val_main_v49 (F := Ideal) x0 x1 x2 x3 x4 x5 x6 x7 x8
    = Sage.combine (val_main_v24 (F := Ideal) x0 x1 x2 x3 x4 x5)
        (val_main_v18 (F := Ideal) (val_main_v24 (F := Ideal) x0 x1 x2 x3 x4 x5) x1 x2) x6 x7 x8 := by
  rw [← mean2]
  unfold val_main_v49 val_main_v46 val_main_v44 val_main_v45 val_main_v48 val_main_v47
  exact Sage.host_combine (val_main_v24 (F := Ideal) x0 x1 x2 x3 x4 x5) (val_main_v43 (F := Ideal) x0 x1 x2 x3 x4 x5) x6 x7 x8 _ _

/-- The third layer's neighbourhood mean is the mean function of the second layer's output. -/
theorem mean3 : val_main_v68 (F := Ideal) x0 x1 x2 x3 x4 x5 x6 x7 x8
    = val_main_v18 (F := Ideal) (val_main_v49 (F := Ideal) x0 x1 x2 x3 x4 x5 x6 x7 x8) x1 x2 := rfl

/-- The program's result is the activated layer function of the second layer's output and of its neighbourhood mean. -/
theorem layer3 : val_main_v75 (F := Ideal) x0 x1 x2 x3 x4 x5 x6 x7 x8 x9 x10 x11
    = Sage.relu (Sage.combine (val_main_v49 (F := Ideal) x0 x1 x2 x3 x4 x5 x6 x7 x8)
        (val_main_v18 (F := Ideal) (val_main_v49 (F := Ideal) x0 x1 x2 x3 x4 x5 x6 x7 x8) x1 x2) x9 x10 x11) := by
  rw [← mean3]
  unfold val_main_v75 val_main_v74 val_main_v71 val_main_v69 val_main_v70 val_main_v73 val_main_v72 val_main_call0_v0 val_main_call0_cst
  funext i
  show max _ _ = max _ _
  exact congrArg₂ max
    (congrFun (Sage.host_combine (val_main_v49 (F := Ideal) x0 x1 x2 x3 x4 x5 x6 x7 x8)
      (val_main_v68 (F := Ideal) x0 x1 x2 x3 x4 x5 x6 x7 x8) x9 x10 x11 _ _) i) rfl

end Cert.ReferenceIdeal.Layers

end
-- ==== Proof.KFold.lean ====
/-
  The kernel program from its launch to its return, read as a value. Between the launches the host stretches compute,
  for the layer about to run, the neighbourhood mean of the previous layer's output: the rows gathered along the
  source indices and summed along the destination indices, times the reciprocal of the clamped in-degree, which the
  first stretch computes once. That product is the whole-array program's quotient by the clamped in-degree, and each
  launch leaves the layer function of what it was given; so the result buffer ends at the whole-array program's own
  stages of the launch contents.
-/
import proofs.«159833_j26809185861708_1_alg».proof.Proof.KIFrame
import proofs.«159833_j26809185861708_1_alg».proof.Proof.KLayer0
import proofs.«159833_j26809185861708_1_alg».proof.Proof.KLayer1
import proofs.«159833_j26809185861708_1_alg».proof.Proof.KLayer2
import proofs.«159833_j26809185861708_1_alg».proof.Proof.RLayers
import Idealize.ShloMosaic.Lib.StableHlo.Run

set_option maxRecDepth 16384

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.StableHlo

/-! ## The host stretches' terms -/

/-- Per node, the reciprocal of the in-degree clamped below at one. -/
def invdeg (dst : IVec S1600000 32) : FVec Ideal S100000 .f32 :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 dst)
        (broadcastInDim S1600000 ![] bcast_S_S1600000 (constant S_ .f32 0x3F800000#32)))
      (broadcastInDim S100000 ![] bcast_S_S100000 (constant S_ .f32 0x3F800000#32)))

/-- The rows of `h` gathered along the source indices (a negative one counted from the end) and summed along the
    destination indices, each node's sum then scaled by the node's entry of `inv`. -/
def meanWith (h : FVec Ideal S100000x64 .f32) (src dst : IVec S1600000 32) (inv : FVec Ideal S100000 .f32) :
    FVec Ideal S100000x64 .f32 :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 dst)
      (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x64 ![0, 1] bcast_S100000x1_S100000x64_0_1
      (broadcastInDim S100000x1 ![0] bcast_S100000_S100000x1_0 inv))

/-- The sums times the reciprocal of the clamped in-degree are the whole-array program's mean: the sums divided by
    the clamped in-degree. -/
theorem mean_eq (h : FVec Ideal S100000x64 .f32) (src dst : IVec S1600000 32) :
    meanWith h src dst (invdeg dst) = Cert.ReferenceIdeal.Read.val_main_v18 (F := Ideal) h src dst :=
  Sage.mean_forms _ _ _ (fun j => (LibLayout.broadcastInDim_scalar_apply _ _ j).trans Sage.one_f32) _ _

/-! ## What each host stretch leaves, from any contents `W` -/

section Stretches

variable (W : Valuation τ sig (Elt Ideal))

theorem s0_v7 : StableHlo.after hostOps0 W (Proc.devRef .tc main_v7) = invdeg (W (Proc.devRef .tc main_arg2)) := by
  after_results_simp; rfl

theorem s0_v20 : StableHlo.after hostOps0 W (Proc.devRef .tc main_v20)
    = meanWith (W (Proc.devRef .tc main_arg0)) (W (Proc.devRef .tc main_arg1)) (W (Proc.devRef .tc main_arg2)) (invdeg (W (Proc.devRef .tc main_arg2))) := by
  after_results_simp; rfl

theorem s0_v21 : StableHlo.after hostOps0 W (Proc.devRef .tc main_v21) = shapeCast S1x64 (W (Proc.devRef .tc main_arg5)) shapeCasts_S64_S1x64 := by
  after_results_simp; rfl

/-- The first stretch writes no argument array. -/
theorem s0_keep : ∀ b ∈ ([main_arg0, main_arg1, main_arg2, main_arg3, main_arg4, main_arg6, main_arg7, main_arg8, main_arg9,
    main_arg10, main_arg11] : List (Ref sig .tc)), StableHlo.after hostOps0 W (Proc.devRef .tc b) = W (Proc.devRef .tc b) := by
  intro b hb
  simp only [List.mem_cons, List.not_mem_nil, or_false] at hb
  rcases hb with rfl | rfl | rfl | rfl | rfl | rfl | rfl | rfl | rfl | rfl | rfl <;> after_results_simp

theorem s1_v35 : StableHlo.after hostOps1 W (Proc.devRef .tc main_v35)
    = meanWith (W (Proc.devRef .tc main_v22)) (W (Proc.devRef .tc main_arg1)) (W (Proc.devRef .tc main_arg2)) (W (Proc.devRef .tc main_v7)) := by
  after_results_simp; rfl

theorem s1_v36 : StableHlo.after hostOps1 W (Proc.devRef .tc main_v36) = shapeCast S1x64 (W (Proc.devRef .tc main_arg8)) shapeCasts_S64_S1x64 := by
  after_results_simp; rfl

/-- The second stretch writes neither the first layer's output, nor an argument array, nor the reciprocals. -/
theorem s1_keep : ∀ b ∈ ([main_v22, main_arg1, main_arg2, main_arg6, main_arg7, main_arg9, main_arg10, main_arg11, main_v7] :
    List (Ref sig .tc)), StableHlo.after hostOps1 W (Proc.devRef .tc b) = W (Proc.devRef .tc b) := by
  intro b hb
  simp only [List.mem_cons, List.not_mem_nil, or_false] at hb
  rcases hb with rfl | rfl | rfl | rfl | rfl | rfl | rfl | rfl | rfl <;> after_results_simp

theorem s2_v50 : StableHlo.after hostOps2 W (Proc.devRef .tc main_v50)
    = meanWith (W (Proc.devRef .tc main_v37)) (W (Proc.devRef .tc main_arg1)) (W (Proc.devRef .tc main_arg2)) (W (Proc.devRef .tc main_v7)) := by
  after_results_simp; rfl

theorem s2_v51 : StableHlo.after hostOps2 W (Proc.devRef .tc main_v51) = shapeCast S1x32 (W (Proc.devRef .tc main_arg11)) shapeCasts_S32_S1x32 := by
  after_results_simp; rfl

/-- The third stretch writes neither the second layer's output nor the last layer's weights. -/
theorem s2_keep : ∀ b ∈ ([main_v37, main_arg9, main_arg10] : List (Ref sig .tc)),
    StableHlo.after hostOps2 W (Proc.devRef .tc b) = W (Proc.devRef .tc b) := by
  intro b hb
  simp only [List.mem_cons, List.not_mem_nil, or_false] at hb
  rcases hb with rfl | rfl | rfl <;> after_results_simp

end Stretches

/-! ## The contents at each boundary of the run, from the launch memory `m` -/

section Boundaries

variable (m : (ℓ : Loc nD τ sig) → Buf (Elt Ideal) ℓ) (ρ : Dev nD → PrngReg) (c : Dev nD)

/-- After the first launch its result array holds the whole-array program's first layer. -/
theorem h1 : W2 m ρ c (Proc.devRef .tc main_v22) = (Cert.ReferenceIdeal.Read.val_main_v24 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 5).trans ((Layer0.value (V1 m ρ) c).trans ?_)
  show Sage.combineRow (StableHlo.after hostOps0 (W0 m ρ c) (Proc.devRef .tc main_arg0)) (StableHlo.after hostOps0 (W0 m ρ c) (Proc.devRef .tc main_v20))
    (StableHlo.after hostOps0 (W0 m ρ c) (Proc.devRef .tc main_arg3)) (StableHlo.after hostOps0 (W0 m ρ c) (Proc.devRef .tc main_arg4))
    (StableHlo.after hostOps0 (W0 m ρ c) (Proc.devRef .tc main_v21)) = _
  rw [s0_keep _ main_arg0 (by decide), s0_keep _ main_arg3 (by decide), s0_keep _ main_arg4 (by decide), s0_v20, s0_v21, mean_eq,
    Sage.combineRow_shapeCast]
  exact (Cert.ReferenceIdeal.Layers.layer1 _ _ _ _ _ _).symm

/-- The first launch writes no argument array it does not stage, and the first stretch wrote none. -/
theorem W2_keep : ∀ b ∈ ([main_arg1, main_arg2, main_arg6, main_arg7, main_arg8, main_arg9, main_arg10, main_arg11] :
    List (Ref sig .tc)), W2 m ρ c (Proc.devRef .tc b) = m ((c : Thread nD τ).loc b) := by
  intro b hb
  simp only [List.mem_cons, List.not_mem_nil, or_false] at hb
  rcases hb with rfl | rfl | rfl | rfl | rfl | rfl | rfl | rfl <;>
    exact (W2_of_ne m ρ c _ (by decide)).trans (s0_keep (W0 m ρ c) _ (by decide))

theorem W2_v7 : W2 m ρ c (Proc.devRef .tc main_v7) = invdeg (m ((c : Thread nD τ).loc main_arg2)) :=
  (W2_of_ne m ρ c main_v7 (by decide)).trans (s0_v7 (W0 m ρ c))

theorem W3_keep : ∀ b ∈ ([main_arg1, main_arg2, main_arg6, main_arg7, main_arg9, main_arg10, main_arg11] :
    List (Ref sig .tc)), W3 m ρ c (Proc.devRef .tc b) = m ((c : Thread nD τ).loc b) := by
  intro b hb
  simp only [List.mem_cons, List.not_mem_nil, or_false] at hb
  rcases hb with rfl | rfl | rfl | rfl | rfl | rfl | rfl <;>
    exact (s1_keep (W2 m ρ c) _ (by decide)).trans (W2_keep m ρ c _ (by decide))

theorem W3_v7 : W3 m ρ c (Proc.devRef .tc main_v7) = invdeg (m ((c : Thread nD τ).loc main_arg2)) :=
  (s1_keep (W2 m ρ c) main_v7 (by decide)).trans (W2_v7 m ρ c)

/-- After the second launch its result array holds the whole-array program's second layer. -/
theorem h2 : W4 m ρ c (Proc.devRef .tc main_v37) = (Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 5).trans ((Layer1.value (V3 m ρ) c).trans ?_)
  show Sage.combineRow (StableHlo.after hostOps1 (W2 m ρ c) (Proc.devRef .tc main_v22)) (StableHlo.after hostOps1 (W2 m ρ c) (Proc.devRef .tc main_v35))
    (StableHlo.after hostOps1 (W2 m ρ c) (Proc.devRef .tc main_arg6)) (StableHlo.after hostOps1 (W2 m ρ c) (Proc.devRef .tc main_arg7))
    (StableHlo.after hostOps1 (W2 m ρ c) (Proc.devRef .tc main_v36)) = _
  rw [s1_keep _ main_v22 (by decide), s1_keep _ main_arg6 (by decide), s1_keep _ main_arg7 (by decide), s1_v35, s1_v36,
    h1, W2_keep m ρ c main_arg1 (by decide), W2_keep m ρ c main_arg2 (by decide), W2_keep m ρ c main_arg6 (by decide),
    W2_keep m ρ c main_arg7 (by decide), W2_keep m ρ c main_arg8 (by decide), W2_v7, mean_eq, Sage.combineRow_shapeCast]
  exact (Cert.ReferenceIdeal.Layers.layer2 _ _ _ _ _ _ _ _ _).symm

theorem W4_keep : ∀ b ∈ ([main_arg1, main_arg2, main_arg9, main_arg10, main_arg11] : List (Ref sig .tc)),
    W4 m ρ c (Proc.devRef .tc b) = m ((c : Thread nD τ).loc b) := by
  intro b hb
  simp only [List.mem_cons, List.not_mem_nil, or_false] at hb
  rcases hb with rfl | rfl | rfl | rfl | rfl <;>
    exact (W4_of_ne m ρ c _ (by decide)).trans (W3_keep m ρ c _ (by decide))

theorem W4_v7 : W4 m ρ c (Proc.devRef .tc main_v7) = invdeg (m ((c : Thread nD τ).loc main_arg2)) :=
  (W4_of_ne m ρ c main_v7 (by decide)).trans (W3_v7 m ρ c)

/-- After the third launch the result buffer holds the whole-array program's result. -/
theorem out : W6 m ρ c (Proc.devRef .tc main_v52) = Cert.ReferenceIdeal.Read.val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 5).trans ((Layer2.value (V5 m ρ) c).trans ?_)
  show Sage.relu (Sage.combineRow (StableHlo.after hostOps2 (W4 m ρ c) (Proc.devRef .tc main_v37)) (StableHlo.after hostOps2 (W4 m ρ c) (Proc.devRef .tc main_v50))
    (StableHlo.after hostOps2 (W4 m ρ c) (Proc.devRef .tc main_arg9)) (StableHlo.after hostOps2 (W4 m ρ c) (Proc.devRef .tc main_arg10))
    (StableHlo.after hostOps2 (W4 m ρ c) (Proc.devRef .tc main_v51))) = _
  rw [s2_keep _ main_v37 (by decide), s2_keep _ main_arg9 (by decide), s2_keep _ main_arg10 (by decide), s2_v50, s2_v51,
    h2, W4_keep m ρ c main_arg1 (by decide), W4_keep m ρ c main_arg2 (by decide), W4_keep m ρ c main_arg9 (by decide),
    W4_keep m ρ c main_arg10 (by decide), W4_keep m ρ c main_arg11 (by decide), W4_v7, mean_eq, Sage.combineRow_shapeCast]
  exact (Cert.ReferenceIdeal.Layers.layer3 _ _ _ _ _ _ _ _ _ _ _ _).symm

end Boundaries

end Cert.KernelIdeal.Fold

end
-- ==== Proof.lean ====
/-
  Three stacked layers of mean-aggregation message passing over 100000 nodes and 1600000 edges, features 64 → 64 → 64 → 32,
  the last layer through the larger-of-zero activation. A layer's output at a node is the node's feature row through the
  self weights, plus the mean of the rows of its in-neighbours through the neighbour weights, plus the bias.

  The kernel program computes each layer's dense part in a launch over ten blocks of 10000 node rows (two products
  through the matrix unit into zero accumulators, the bias row broadcast over the block) and the neighbourhood means on
  the host between the launches: rows gathered along the source indices, summed along the destination indices, times
  the reciprocal of the in-degree clamped below at one, that reciprocal computed once. The reference computes every
  layer on whole arrays and divides the sums by the clamped in-degree. On the extended reals the two means agree because
  the clamped in-degree is at least one, hence not zero: `x · (1 / y) = x / y` for every `x` there, infinite or not; the
  narrowing of the matrix unit's operands is the identity; a block's rows are rows of the whole arrays, and the ten
  blocks tile the result. So the kernel program's result buffer ends at the reference's own stages of the arguments.

  The frames of the two kernel programs are the generated ones; the reference's frame is its generated run with the
  result dropped; the idealization rewrote nothing.
-/
import proofs.«159833_j26809185861708_1_alg».proof.Defs
import proofs.«159833_j26809185861708_1_alg».proof.Proof.Gen.Kernel
import proofs.«159833_j26809185861708_1_alg».proof.Proof.Gen.Kernel.Skeleton
import proofs.«159833_j26809185861708_1_alg».proof.Proof.Gen.Kernel.Points
import proofs.«159833_j26809185861708_1_alg».proof.Proof.KFrame
import proofs.«159833_j26809185861708_1_alg».proof.Proof.Gen.KernelIdeal
import proofs.«159833_j26809185861708_1_alg».proof.Proof.Gen.KernelIdeal.Skeleton
import proofs.«159833_j26809185861708_1_alg».proof.Proof.Gen.KernelIdeal.Points
import proofs.«159833_j26809185861708_1_alg».proof.Proof.KIFrame
import proofs.«159833_j26809185861708_1_alg».proof.Proof.KIRun
import proofs.«159833_j26809185861708_1_alg».proof.Proof.KFold
import proofs.«159833_j26809185861708_1_alg».proof.Proof.Gen.ReferenceIdeal
import proofs.«159833_j26809185861708_1_alg».proof.Proof.Gen.ReferenceIdeal.Run
import proofs.«159833_j26809185861708_1_alg».proof.Proof.Gen.ReferenceIdeal.Read
import proofs.«159833_j26809185861708_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- Both programs run, the kernel program's result buffer and the reference's ending at one function of the arguments:
    the reference's last stage. -/
theorem algebraic : Cert.algebraic_KernelIdeal_ReferenceIdeal := by
  intro m ρ m' ρ' _ hagree
  refine ⟨fun c => Cert.ReferenceIdeal.Read.val_main_v75 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.out m ρ c), (h c).2⟩) (Cert.KernelIdeal.GenP.run_named m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v75_eq, e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2) (Cert.ReferenceIdeal.Value.run (F := Ideal) m ρ),
  trivial,
  algebraic⟩

end Cert.Proof

end
